-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048x2048 : Shape := ⟨3, ![2, 2048, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x2048x2048 : S_.BroadcastsInDim S2x2048x2048 (![] : Fin 0 → Fin S2x2048x2048.rank)
  reducesTo_S2x2048x2048_S_d0_1_2 : S2x2048x2048.ReducesTo [0, 1, 2] S_

variable [Facts]

def fn_part1 {F : FTy → Type} [FloatOps F] (main_v13 : IVec S_ 1) (main_v16 : IVec S2x2048x2048 1) : IVec S_ 1 :=
  let main_c_5 : IVec S_ 1 := constantI S_ 1 1#1
  let main_v17 : IVec S_ 1 := (fun x v => Host.reduce IntOp.andi x v reducesTo_S2x2048x2048_S_d0_1_2 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x2048x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x2048x2048 .f32 := Host.absf main_arg3
  let main_cst_4 : FVec F S_ .f32 := constant S_ .f32 0x7F800000#32
  let main_v15 : FVec F S2x2048x2048 .f32 := broadcastInDim S2x2048x2048 ![] bcast_S_S2x2048x2048 main_cst_4
  let main_v16 : IVec S2x2048x2048 1 := cmpf .olt main_v14 main_v15
  fn_part1 (F := F) main_v13 main_v16
-- ==== Kernel.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S1x1x512x64 : Shape := ⟨4, ![1, 1, 512, 64]⟩
abbrev S1x1x2048x64 : Shape := ⟨4, ![1, 1, 2048, 64]⟩
abbrev S1x512x2048 : Shape := ⟨3, ![1, 512, 2048]⟩
abbrev S1x1x512x2048 : Shape := ⟨4, ![1, 1, 512, 2048]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 12
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .f32⟩
  | .hbm, ⟨4, _⟩ => ⟨S2x16x2048x64, .f32⟩
  | .hbm, ⟨5, _⟩ => ⟨S2x16x2048x2048, .f32⟩
  | .local _ .vmem, ⟨0, _⟩ => ⟨S1x1x512x64, .f32⟩
  | .local _ .vmem, ⟨1, _⟩ => ⟨S1x1x512x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S1x512x2048, .f32⟩
  | .local _ .vmem, ⟨7, _⟩ => ⟨S1x512x2048, .f32⟩
  | .local _ .vmem, ⟨8, _⟩ => ⟨S1x1x512x64, .f32⟩
  | .local _ .vmem, ⟨9, _⟩ => ⟨S1x1x512x64, .f32⟩
  | .local _ .vmem, ⟨10, _⟩ => ⟨S1x1x512x2048, .f32⟩
  | .local _ .vmem, ⟨11, _⟩ => ⟨S1x1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 16], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

class Facts₀ : Prop where
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  reduces_S512x2048_S512 : S512x2048.Reduces [1] S512
  shapeCasts_S512_S512x1 : S512.ShapeCasts S512x1
  broadcasts_S512x1_S512x2048 : S512x1.Broadcasts S512x2048
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  shapeCasts_S512x2048_S1x1x512x2048 : S512x2048.ShapeCasts S1x1x512x2048
  shapeCasts_S512x64_S1x1x512x64 : S512x64.ShapeCasts S1x1x512x64
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x64.size a ≤ S2x16x2048x64.size a
  hwx0_0 : ∀ i : grid0.Coords, EltTy.bits .f32 = 32 ∨ (Rect.block (s := S2x16x2048x64) S1x1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x2048.size a ≤ S2x2048x2048.size a
  hwx0_3 : ∀ i : grid0.Coords, EltTy.bits .f32 = 32 ∨ (Rect.block (s := S2x2048x2048) S1x512x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512x64.size a ≤ S2x16x2048x64.size a
  hwx0_4 : ∀ i : grid0.Coords, EltTy.bits .f32 = 32 ∨ (Rect.block (s := S2x16x2048x64) S1x1x512x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x2048.size a ≤ S2x16x2048x2048.size a
  hwx0_5 : ∀ i : grid0.Coords, EltTy.bits .f32 = 32 ∨ (Rect.block (s := S2x16x2048x2048) S1x1x512x2048.size (cc0_transform_5 i) (hinb0_5 i)).WholeWords (EltTy.packing .f32)

variable [Facts₀]

def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_arg0) S1x1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x512x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1x512x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048x2048 : Shape := ⟨3, ![2, 2048, 2048]⟩
abbrev S2x16x2048x2048 : Shape := ⟨4, ![2, 16, 2048, 2048]⟩
abbrev S_ : Shape := ⟨0, ![]⟩
abbrev S2x1x2048x2048 : Shape := ⟨4, ![2, 1, 2048, 2048]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048x2048, .f32⟩
  | .hbm, ⟨4, _⟩ => ⟨S2x16x2048x2048, .f32⟩
  | .hbm, ⟨5, _⟩ => ⟨S_, .f32⟩
  | .hbm, ⟨6, _⟩ => ⟨S_, .f32⟩
  | .hbm, ⟨7, _⟩ => ⟨S2x16x2048x2048, .f32⟩
  | .hbm, ⟨8, _⟩ => ⟨S2x16x2048x2048, .f32⟩
  | .hbm, ⟨9, _⟩ => ⟨S2x1x2048x2048, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048x2048_S2x1x2048x2048_0_2_3 : S2x2048x2048.BroadcastsInDim S2x1x2048x2048 (![0, 2, 3] : Fin 3 → Fin S2x1x2048x2048.rank)
  bcast_S2x1x2048x2048_S2x16x2048x2048_0_1_2_3 : S2x1x2048x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.LibKeepdims.lean ====
/-
  The column forms of a row reduction kept as a unit axis (`jnp.sum(x, axis=-1, keepdims=True)` inside a kernel), read
  at an index written with `ValueIdx.ix1` / `ix2`, for any extents `a`, `b`:

  • `shapeCast_a_a1_apply`: an `[a]` vector cast to the column `[a, 1]` reads, at `(p, u)`, the vector at `p`;
  • `broadcastTo_a1_ab_apply`: a column `[a, 1]` broadcast along the rows to `[a, b]` reads, at `(p, q)`, the column at
    `(p, 0)`;
  • `multiReduction_add_rows`: at the ideal values the lane sum of an `[a, b]` vector over its second axis, read at `p`,
    is `∑ k : Fin b, v (p, k)` (the accumulator is the neutral zero, which the sum drops).

  Together: a kernel's `x / (√(∑ x², keepdims) + ε)` at `(p, q)` mentions row `p` of `x` only.
-/
import Idealize.ShloMosaic.Lib.Pipeline.Value
import Idealize.ShloMosaic.Lib.ValueIdx
import Idealize.ShloMosaic.PureOps.Ideal.Laws

open scoped BigOperators

namespace Idealize.ShloMosaic.ValueIdx

open Idealize.ShloMosaic

variable {α : Type}

/-- An `[a]` vector cast to the column `[a, 1]` reads, at `(p, u)`, the vector at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the rows to `[a, b]` reads, at `(p, q)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- At the ideal values the lane sum of an `[a, b]` vector over its second axis, read at row `p`, is the sum of the row. -/
theorem multiReduction_add_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun ax => Fin.ext (by
      match ax with
      | ⟨0, _⟩ => rfl
      | ⟨1, _⟩ => rfl)))

end Idealize.ShloMosaic.ValueIdx
-- ==== Proof.LibSoftmaxRows.lean ====
/-
  A kernel's row softmax read at an index, for any extents `a`, `b`: over an `[a, b]` vector `s`, the body takes the
  row maximum (a lane reduction from `-∞`, kept as a unit axis), subtracts it, exponentiates, takes the row sum (kept as
  a unit axis) and divides.

  • `multiReduction_maximumf_rows`: at the ideal values the lane maximum of an `[a, b]` vector over its second axis, read
    at row `p`, is the fold of `max` over the row from the accumulator's value;
  • `softmax_rows_apply`: the quotient at `(p, j)` is `exp (s (p, j) − top p) / ∑ j', exp (s (p, j') − top p)` with
    `top p` that fold: it mentions row `p` of `s` only.
-/
import proofs.«139500_j69466801045769_1_alg».proof.Proof.LibKeepdims

open scoped BigOperators

namespace Idealize.ShloMosaic.ValueIdx

open Idealize.ShloMosaic

/-- At the ideal values the lane maximum of an `[a, b]` vector over its second axis, read at row `p`, is the fold of `max`
    over the row, started at the accumulator's value. -/
theorem multiReduction_maximumf_rows {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) (fun k => v (ix2 p k)) :=
  (Ideal.multiReduction_maximumf_single v acc h hφ hacc (ix1 p)).trans
    (congrArg (fun f => (Finset.univ : Finset (Fin b)).fold max (Ideal.ofBits φ acc) f)
      (funext fun k => congrArg v (funext fun ax => Fin.ext (by
        match ax with
        | ⟨0, _⟩ => rfl
        | ⟨1, _⟩ => rfl))))

/-- The largest entry of row `p` of an `[a, b]` vector of ideal f32 values, as the kernel takes it: from `-∞`. -/
noncomputable abbrev rowTop {a b : ℕ} (s : FVec Ideal ⟨2, ![a, b]⟩ .f32) (p : Fin a) : EReal :=
  (Finset.univ : Finset (Fin b)).fold max (Ideal.ofBits .f32 0xFF800000#32) (fun k => s (ix2 p k))

/-- The row maximum kept as a unit axis and broadcast back along the rows reads, anywhere in row `p`, that row's maximum. -/
theorem rowMax_keepdims_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (p : Fin a) (j : Fin b) :
    broadcastTo ⟨2, ![a, b]⟩ (shapeCast ⟨2, ![a, 1]⟩ (multiReduction .maximumf [1] ⟨1, ![a]⟩ s 0xFF800000#32 hr (.inl rfl) rfl) hc) hb (ix2 p j)
      = rowTop s p :=
  (broadcastTo_a1_ab_apply _ hb p j).trans
    ((shapeCast_a_a1_apply _ hc p (0 : Fin 1)).trans (multiReduction_maximumf_rows s _ hr _ _ p))

/-- The exponentials of a row's entries less its maximum, as the kernel computes them. -/
theorem exp_sub_rowMax_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (p : Fin a) (j : Fin b) :
    exp (subf s (broadcastTo ⟨2, ![a, b]⟩ (shapeCast ⟨2, ![a, 1]⟩ (multiReduction .maximumf [1] ⟨1, ![a]⟩ s 0xFF800000#32 hr (.inl rfl) rfl) hc) hb)) (ix2 p j)
      = Ideal.exp (s (ix2 p j) - rowTop s p) :=
  congrArg (fun t => Ideal.exp (s (ix2 p j) - t)) (rowMax_keepdims_apply s hr hc hb p j)

/-- THE ROW SOFTMAX at `(p, j)`: the exponential of the entry less the row's maximum, over the sum of the row's such
    exponentials. -/
theorem softmax_rows_apply {a b : ℕ} (s : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (p : Fin a) (j : Fin b) :
    divf (exp (subf s (broadcastTo ⟨2, ![a, b]⟩ (shapeCast ⟨2, ![a, 1]⟩ (multiReduction .maximumf [1] ⟨1, ![a]⟩ s 0xFF800000#32 hr (.inl rfl) rfl) hc) hb)))
        (broadcastTo ⟨2, ![a, b]⟩ (shapeCast ⟨2, ![a, 1]⟩ (multiReduction .add [1] ⟨1, ![a]⟩
          (exp (subf s (broadcastTo ⟨2, ![a, b]⟩ (shapeCast ⟨2, ![a, 1]⟩ (multiReduction .maximumf [1] ⟨1, ![a]⟩ s 0xFF800000#32 hr (.inl rfl) rfl) hc) hb)))
          0x00000000#32 hr (.inl rfl) rfl) hc) hb) (ix2 p j)
      = Ideal.div (Ideal.exp (s (ix2 p j) - rowTop s p)) (∑ j' : Fin b, Ideal.exp (s (ix2 p j') - rowTop s p)) := by
  refine congrArg₂ Ideal.div (exp_sub_rowMax_apply s hr hc hb p j) ?_
  exact (broadcastTo_a1_ab_apply _ hb p j).trans
    ((shapeCast_a_a1_apply _ hc p (0 : Fin 1)).trans
      ((multiReduction_add_rows _ _ hr _ _ p).trans
        (Finset.sum_congr rfl fun q _ => exp_sub_rowMax_apply s hr hc hb p q)))

end Idealize.ShloMosaic.ValueIdx
-- ==== Proof.AttentionRow.lean ====
/-
  Masked softmax attention, one query row at a time, on the extended reals.

  For a query row `qr` (64 features), the 2048 key rows `K`, the mask row `mr` and the 2048 value rows `W`:
    logit j  = (∑ d, qr d · K j d) · (1/8) · mr j        (the literal `0.125` kept as its pattern)
    top      = the maximum of the logits (a fold of `max` from `-∞`, kept as its pattern)
    weight j = exp (logit j − top)
    prob j   = weight j / ∑ j', weight j'
    out d    = ∑ j, prob j · W j d
  The whole arrays are these row functions read at (batch, head, row): `score` and `attend`.
-/
import Idealize.ShloMosaic.PureOps.Ideal
import Idealize.ShloMosaic.Lib.ValueIdx
import Mathlib.Data.Finset.Fold

noncomputable section

open scoped BigOperators

namespace Cert.AttentionRow

open Idealize.ShloMosaic Idealize.ShloMosaic.ValueIdx

/-- The scaled, masked logit of the query row against key row `j`. -/
def logit (qr : Fin 64 → EReal) (K : Fin 2048 → Fin 64 → EReal) (mr : Fin 2048 → EReal) (j : Fin 2048) : EReal :=
  (∑ d : Fin 64, qr d * K j d) * Ideal.ofBits .f32 0x3E000000#32 * mr j

/-- The row's largest logit. -/
def top (qr : Fin 64 → EReal) (K : Fin 2048 → Fin 64 → EReal) (mr : Fin 2048 → EReal) : EReal :=
  (Finset.univ : Finset (Fin 2048)).fold max (Ideal.ofBits .f32 0xFF800000#32) (logit qr K mr)

/-- The unnormalised softmax weight of key row `j`. -/
def weight (qr : Fin 64 → EReal) (K : Fin 2048 → Fin 64 → EReal) (mr : Fin 2048 → EReal) (j : Fin 2048) : EReal :=
  Ideal.exp (logit qr K mr j - top qr K mr)

/-- The softmax probability of key row `j`. -/
def prob (qr : Fin 64 → EReal) (K : Fin 2048 → Fin 64 → EReal) (mr : Fin 2048 → EReal) (j : Fin 2048) : EReal :=
  Ideal.div (weight qr K mr j) (∑ j' : Fin 2048, weight qr K mr j')

/-- The attention output of the row: the value rows averaged with the probabilities. -/
def out (qr : Fin 64 → EReal) (K : Fin 2048 → Fin 64 → EReal) (mr : Fin 2048 → EReal) (W : Fin 2048 → Fin 64 → EReal)
    (d : Fin 64) : EReal :=
  ∑ j : Fin 2048, prob qr K mr j * W j d

/-- A fold of `max` is at least its starting value, so taking `max` with the start once more changes nothing. -/
theorem max_fold_max {n : ℕ} (c : EReal) (f : Fin n → EReal) :
    max c ((Finset.univ : Finset (Fin n)).fold max c f) = (Finset.univ : Finset (Fin n)).fold max c f :=
  max_eq_right ((Finset.le_fold_max c).mpr (Or.inl le_rfl))

abbrev Sqkv : Shape := ⟨4, ![2, 16, 2048, 64]⟩
abbrev Smask : Shape := ⟨3, ![2, 2048, 2048]⟩
abbrev Sscore : Shape := ⟨4, ![2, 16, 2048, 2048]⟩

/-- Row `r` of head `h` of batch `b` of a `[2, 16, 2048, 64]` array. -/
abbrev rowOf (x : Sqkv.Idx → EReal) (b : Fin 2) (h : Fin 16) (r : Fin 2048) : Fin 64 → EReal := fun d => x (ix4 b h r d)

/-- The rows of head `h` of batch `b`. -/
abbrev rowsOf (x : Sqkv.Idx → EReal) (b : Fin 2) (h : Fin 16) : Fin 2048 → Fin 64 → EReal := fun r d => x (ix4 b h r d)

/-- Row `r` of batch `b` of the mask (shared by the heads). -/
abbrev maskRow (mask : Smask.Idx → EReal) (b : Fin 2) (r : Fin 2048) : Fin 2048 → EReal := fun j => mask (ix3 b r j)

/-- The softmax probabilities as one `[2, 16, 2048, 2048]` array. -/
def score (q k : Sqkv.Idx → EReal) (mask : Smask.Idx → EReal) : Sscore.Idx → EReal := fun y =>
  prob (rowOf q (y 0) (y 1) (y 2)) (rowsOf k (y 0) (y 1)) (maskRow mask (y 0) (y 2)) (y 3)

/-- The attention output as one `[2, 16, 2048, 64]` array. -/
def attend (q k v : Sqkv.Idx → EReal) (mask : Smask.Idx → EReal) : Sqkv.Idx → EReal := fun y =>
  out (rowOf q (y 0) (y 1) (y 2)) (rowsOf k (y 0) (y 1)) (maskRow mask (y 0) (y 2)) (rowsOf v (y 0) (y 1)) (y 3)

end Cert.AttentionRow

end
-- ==== Proof.KernelRow.lean ====
/-
  What one grid point's body computes, read at an index of its blocks.

  The body holds a block of 512 query rows, the 2048 key rows and value rows of its head, and the 512 matching rows of the
  mask. Row `p` of its softmax block is the softmax row of the specification for query row `p` of the block: the
  logits are the products of that row with the key rows, times `1/8`, times the mask row; the row maximum and the row sum
  range over the 2048 keys. Row `p` of its output block is that row's probabilities times the value rows. The two
  matrix products are plain sums over the contracted axis (a product into a zero accumulator), and the narrowing of
  the operands to half precision is the identity on the extended reals.
-/
import proofs.«139500_j69466801045769_1_alg».proof.Proof.Gen.KernelIdeal.Skeleton
import proofs.«139500_j69466801045769_1_alg».proof.Proof.LibSoftmaxRows
import proofs.«139500_j69466801045769_1_alg».proof.Proof.AttentionRow
import Idealize.ShloMosaic.PureOps.Ideal.Laws
import Idealize.ShloMosaic.Lib.Pipeline.Value
import Idealize.ShloMosaic.Lib.ValueIdx

noncomputable section

open scoped BigOperators

namespace Cert.KernelIdeal.Row

open Cert.KernelIdeal Cert.KernelIdeal.Gen Idealize.ShloMosaic Idealize.ShloMosaic.ValueIdx
open Cert.AttentionRow

/-! ## The product of the queries with the keys: both operands contracted over their second axis -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- Entry `(p, k)` of the product of a `[512, 64]` block with the transpose of a `[2048, 64]` block, into zero: the
    sum over the 64 features of row `p` of the first times row `k` of the second. -/
theorem qk_apply (L : FVec Ideal S512x64 .bf16) (R : FVec Ideal S2048x64 .bf16) (p : Fin 512) (k : Fin 2048) :
    matmul dot_S512x64_S2048x64_S512x2048_1_1_0_0_n_n none L R (constant S512x2048 .f32 0x00000000#32) (ix2 p k)
      = ∑ d : Fin 64, L (ix2 p d) * R (ix2 k d) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun d _ => ?_
  have hk := ValueIdx.contrEquiv1_symm_val dot_S512x64_S2048x64_S512x2048_1_1_0_0_n_n 64 rfl rfl d
  have el : dot_S512x64_S2048x64_S512x2048_1_1_0_0_n_n.lhsIdx (ix2 p k) ((ValueIdx.contrEquiv1 dot_S512x64_S2048x64_S512x2048_1_1_0_0_n_n 64 rfl rfl).symm d) = ix2 p d := funext fun a => Fin.ext (by
    match a with
    | ⟨0, _⟩ => exact lhs_qk_0 _ _
    | ⟨1, _⟩ => exact (lhs_qk_1 _ _).trans hk)
  have er : dot_S512x64_S2048x64_S512x2048_1_1_0_0_n_n.rhsIdx (ix2 p k) ((ValueIdx.contrEquiv1 dot_S512x64_S2048x64_S512x2048_1_1_0_0_n_n 64 rfl rfl).symm d) = ix2 k d := funext fun a => Fin.ext (by
    match a with
    | ⟨0, _⟩ => exact rhs_qk_0 _ _
    | ⟨1, _⟩ => exact (rhs_qk_1 _ _).trans hk)
  rw [el, er]

/-! ## The product of the probabilities with the values: rows of the first against columns of the second -/

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- Entry `(p, d)` of the product of a `[512, 2048]` block with a `[2048, 64]` block, into zero: the sum over the 2048
    keys of row `p` of the first times column `d` of the second. -/
theorem pv_apply (L : FVec Ideal S512x2048 .bf16) (R : FVec Ideal S2048x64 .bf16) (p : Fin 512) (d : Fin 64) :
    matmul dot_S512x2048_S2048x64_S512x64_1_0_0_1_n_n none L R (constant S512x64 .f32 0x00000000#32) (ix2 p d)
      = ∑ j : Fin 2048, L (ix2 p j) * R (ix2 j d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun j _ => ?_
  have hk := ValueIdx.contrEquiv1_symm_val dot_S512x2048_S2048x64_S512x64_1_0_0_1_n_n 2048 rfl rfl j
  have el : dot_S512x2048_S2048x64_S512x64_1_0_0_1_n_n.lhsIdx (ix2 p d) ((ValueIdx.contrEquiv1 dot_S512x2048_S2048x64_S512x64_1_0_0_1_n_n 2048 rfl rfl).symm j) = ix2 p j := funext fun a => Fin.ext (by
    match a with
    | ⟨0, _⟩ => exact lhs_pv_0 _ _
    | ⟨1, _⟩ => exact (lhs_pv_1 _ _).trans hk)
  have er : dot_S512x2048_S2048x64_S512x64_1_0_0_1_n_n.rhsIdx (ix2 p d) ((ValueIdx.contrEquiv1 dot_S512x2048_S2048x64_S512x64_1_0_0_1_n_n 2048 rfl rfl).symm j) = ix2 j d := funext fun a => Fin.ext (by
    match a with
    | ⟨0, _⟩ => exact (rhs_pv_0 _ _).trans hk
    | ⟨1, _⟩ => exact rhs_pv_1 _ _)
  rw [el, er]

/-! ## The blocks with their unit axes cast away -/

/-- A `[1, 1, 512, 64]` block cast to `[512, 64]` reads, at `(p, d)`, the block at `(0, 0, p, d)`. -/
theorem cast_rows512_apply {α : Type} (x : S1x1x512x64.Idx → α) (p : Fin 512) (d : Fin 64) :
    shapeCast S512x64 x shapeCasts_S1x1x512x64_S512x64 (ix2 p d) = x (ix4 (0 : Fin 1) (0 : Fin 1) p d) :=
  shapeCast_apply x _ (ix2 p d) (ix4 (0 : Fin 1) (0 : Fin 1) p d) (by
    rw [Shape.rowMajor_val_two, Shape.rowMajor_val_four]
    show ((0 * 1 + 0) * 512 + p.val) * 64 + d.val = p.val * 64 + d.val
    omega)

/-- A `[1, 1, 2048, 64]` block cast to `[2048, 64]` reads, at `(r, d)`, the block at `(0, 0, r, d)`. -/
theorem cast_rows2048_apply {α : Type} (x : S1x1x2048x64.Idx → α) (r : Fin 2048) (d : Fin 64) :
    shapeCast S2048x64 x shapeCasts_S1x1x2048x64_S2048x64 (ix2 r d) = x (ix4 (0 : Fin 1) (0 : Fin 1) r d) :=
  shapeCast_apply x _ (ix2 r d) (ix4 (0 : Fin 1) (0 : Fin 1) r d) (by
    rw [Shape.rowMajor_val_two, Shape.rowMajor_val_four]
    show ((0 * 1 + 0) * 2048 + r.val) * 64 + d.val = r.val * 64 + d.val
    omega)

/-- A `[1, 512, 2048]` block cast to `[512, 2048]` reads, at `(p, k)`, the block at `(0, p, k)`. -/
theorem cast_mask_apply {α : Type} (x : S1x512x2048.Idx → α) (p : Fin 512) (k : Fin 2048) :
    shapeCast S512x2048 x shapeCasts_S1x512x2048_S512x2048 (ix2 p k) = x (ix3 (0 : Fin 1) p k) :=
  shapeCast_apply x _ (ix2 p k) (ix3 (0 : Fin 1) p k) (by
    rw [Shape.rowMajor_val_two, Shape.rowMajor_val_three]
    show (0 * 512 + p.val) * 2048 + k.val = p.val * 2048 + k.val
    omega)

/-! ## The logits, the probabilities, the output -/

variable (v0 : Vec Ideal S1x1x512x64 .f32) (v3 : Vec Ideal S1x1x2048x64 .f32) (v9 : Vec Ideal S1x512x2048 .f32)
  (v25 : Vec Ideal S1x1x2048x64 .f32)

/-- Query row `p` of the query block. -/
abbrev qrow (p : Fin 512) : Fin 64 → EReal := fun d => v0 (ix4 (0 : Fin 1) (0 : Fin 1) p d)
/-- The rows of a key or value block. -/
abbrev rows (x : Vec Ideal S1x1x2048x64 .f32) : Fin 2048 → Fin 64 → EReal := fun r d => x (ix4 (0 : Fin 1) (0 : Fin 1) r d)
/-- Row `p` of the mask block. -/
abbrev mrow (p : Fin 512) : Fin 2048 → EReal := fun k => v9 (ix3 (0 : Fin 1) p k)

/-- The scaled, masked logits as the body builds them from the three loaded blocks. -/
def logits : FVec Ideal S512x2048 .f32 :=
  mulf (mulf (matmul dot_S512x64_S2048x64_S512x2048_1_1_0_0_n_n none
      (truncf .bf16 (shapeCast S512x64 v0 shapeCasts_S1x1x512x64_S512x64) bitsLt_bf16_f32)
      (truncf .bf16 (shapeCast S2048x64 v3 shapeCasts_S1x1x2048x64_S2048x64) bitsLt_bf16_f32)
      (constant S512x2048 .f32 0x00000000#32))
    (broadcast S512x2048 (Scalar.ofBits .f32 0x3E000000#32)))
    (shapeCast S512x2048 v9 shapeCasts_S1x512x2048_S512x2048)

/-- The logits at `(p, k)` are the specification's logit of query row `p` against key row `k`. -/
theorem logits_apply (p : Fin 512) (k : Fin 2048) :
    logits v0 v3 v9 (ix2 p k) = logit (qrow v0 p) (rows v3) (mrow v9 p) k := by
  show matmul dot_S512x64_S2048x64_S512x2048_1_1_0_0_n_n none _ _ _ (ix2 p k) * Ideal.ofBits .f32 0x3E000000#32
      * shapeCast S512x2048 v9 shapeCasts_S1x512x2048_S512x2048 (ix2 p k) = _
  rw [qk_apply, cast_mask_apply]
  refine congrArg (fun t => t * Ideal.ofBits .f32 0x3E000000#32 * v9 (ix3 (0 : Fin 1) p k)) (Finset.sum_congr rfl fun d _ => ?_)
  show shapeCast S512x64 v0 shapeCasts_S1x1x512x64_S512x64 (ix2 p d) * shapeCast S2048x64 v3 shapeCasts_S1x1x2048x64_S2048x64 (ix2 k d) = _
  rw [cast_rows512_apply, cast_rows2048_apply]

/-- THE SOFTMAX BLOCK at `(p, j)`: the specification's probability of key row `j` for query row `p`. -/
theorem pay2_apply (p : Fin 512) (j : Fin 2048) :
    k0_pay2 (F := Ideal) v0 v3 v9 (ix2 p j) = prob (qrow v0 p) (rows v3) (mrow v9 p) j := by
  refine (softmax_rows_apply (logits v0 v3 v9) reduces_S512x2048_S512 shapeCasts_S512_S512x1 broadcasts_S512x1_S512x2048 p j).trans ?_
  unfold prob weight top
  simp only [rowTop, logits_apply]

/-- THE OUTPUT BLOCK at `(p, d)`: the specification's output of query row `p` at feature `d`. -/
theorem pay4_apply (p : Fin 512) (d : Fin 64) :
    k0_pay4 (F := Ideal) v0 v3 v9 v25 (ix2 p d) = out (qrow v0 p) (rows v3) (mrow v9 p) (rows v25) d := by
  refine (pv_apply _ _ p d).trans ?_
  unfold out
  refine Finset.sum_congr rfl fun j _ => ?_
  show k0_pay2 (F := Ideal) v0 v3 v9 (ix2 p j) * shapeCast S2048x64 v25 shapeCasts_S1x1x2048x64_S2048x64 (ix2 j d) = _
  rw [pay2_apply, cast_rows2048_apply]

end Cert.KernelIdeal.Row

end
-- ==== Proof.KernelArrays.lean ====
/-
  From the grid points' blocks to the two result arrays.

  Point `t` = (batch `b`, query tile `g`, head `h`) stages rows `512 g … 512 g + 511` of head `h` of batch `b` of the
  queries, all 2048 key rows and value rows of that head, and rows `512 g …` of batch `b` of the mask; it writes back rows
  `512 g …` of head `h` of batch `b` of the output and of the probabilities. A row of a block is the matching row of its
  array, so what the point writes back is the matching block of `attend` / `score` of the whole arrays. The 128 points'
  blocks tile both result arrays, so after the run the arrays ARE `attend` and `score` of the arguments.
-/
import proofs.«139500_j69466801045769_1_alg».proof.Proof.Gen.KernelIdeal.Value
import proofs.«139500_j69466801045769_1_alg».proof.Proof.KernelRow
import Idealize.ShloMosaic.Lib.Pipeline.Value

set_option maxRecDepth 16384

noncomputable section

open scoped BigOperators

namespace Cert.KernelIdeal.Arrays

open Cert.KernelIdeal Cert.KernelIdeal.Gen Cert.KernelIdeal.Row
open Idealize.ShloMosaic Idealize.ShloMosaic.TcCoe Idealize.ShloMosaic.ValueIdx Idealize.SL.Sem
open Idealize.ShloMosaic.Pipeline (Dat)
open Cert.AttentionRow

/-! ## The two stored blocks with their unit axes restored -/

/-- The stored softmax block at `(0, 0, p, j)` is the probability of key row `j` for the block's query row `p`. -/
theorem pay3_apply (v0 : Vec Ideal S1x1x512x64 .f32) (v3 : Vec Ideal S1x1x2048x64 .f32) (v9 : Vec Ideal S1x512x2048 .f32)
    (y : S1x1x512x2048.Idx) (p : Fin 512) (j : Fin 2048) (hp : (y 2).val = p.val) (hj : (y 3).val = j.val) :
    k0_pay3 (F := Ideal) v0 v3 v9 y = prob (qrow v0 p) (rows v3) (mrow v9 p) j := by
  have h0 : (y 0).val < 1 := (y 0).isLt
  have h1 : (y 1).val < 1 := (y 1).isLt
  refine (shapeCast_apply (k0_pay2 (F := Ideal) v0 v3 v9) shapeCasts_S512x2048_S1x1x512x2048 y (ix2 p j) (by
    rw [Shape.rowMajor_val_two, Shape.rowMajor_val_four]
    show p.val * 2048 + j.val = (((y 0).val * 1 + (y 1).val) * 512 + (y 2).val) * 2048 + (y 3).val
    omega)).trans ?_
  exact pay2_apply v0 v3 v9 p j

/-- The stored output block at `(0, 0, p, d)` is the attention output of the block's query row `p` at feature `d`. -/
theorem pay1_apply (v0 : Vec Ideal S1x1x512x64 .f32) (v3 : Vec Ideal S1x1x2048x64 .f32) (v9 : Vec Ideal S1x512x2048 .f32)
    (v25 : Vec Ideal S1x1x2048x64 .f32) (y : S1x1x512x64.Idx) (p : Fin 512) (d : Fin 64) (hp : (y 2).val = p.val) (hd : (y 3).val = d.val) :
    k0_pay1 (F := Ideal) (k0_pay4 (F := Ideal) v0 v3 v9 v25) y = out (qrow v0 p) (rows v3) (mrow v9 p) (rows v25) d := by
  have h0 : (y 0).val < 1 := (y 0).isLt
  have h1 : (y 1).val < 1 := (y 1).isLt
  refine (shapeCast_apply (k0_pay4 (F := Ideal) v0 v3 v9 v25) shapeCasts_S512x64_S1x1x512x64 y (ix2 p d) (by
    rw [Shape.rowMajor_val_two, Shape.rowMajor_val_four]
    show p.val * 64 + d.val = (((y 0).val * 1 + (y 1).val) * 512 + (y 2).val) * 64 + (y 3).val
    omega)).trans ?_
  exact pay4_apply v0 v3 v9 v25 p d

/-! ## The index maps, decided over the 128 grid points -/

/-- Every window's block indices in terms of the probabilities window's: queries, output and probabilities move together
    (batch, head, query tile); keys and values follow batch and head; the mask follows batch and query tile; every other
    block index is zero. -/
theorem idx_facts : ∀ t : Fin cfg0.N,
    (win0_5.index t (0 : Fin 4) < 2 ∧ win0_5.index t (1 : Fin 4) < 16 ∧ win0_5.index t (2 : Fin 4) < 4 ∧ win0_5.index t (3 : Fin 4) = 0)
    ∧ (win0_4.index t (0 : Fin 4) = win0_5.index t (0 : Fin 4) ∧ win0_4.index t (1 : Fin 4) = win0_5.index t (1 : Fin 4)
        ∧ win0_4.index t (2 : Fin 4) = win0_5.index t (2 : Fin 4) ∧ win0_4.index t (3 : Fin 4) = 0)
    ∧ (win0_0.index t (0 : Fin 4) = win0_5.index t (0 : Fin 4) ∧ win0_0.index t (1 : Fin 4) = win0_5.index t (1 : Fin 4)
        ∧ win0_0.index t (2 : Fin 4) = win0_5.index t (2 : Fin 4) ∧ win0_0.index t (3 : Fin 4) = 0)
    ∧ (win0_1.index t (0 : Fin 4) = win0_5.index t (0 : Fin 4) ∧ win0_1.index t (1 : Fin 4) = win0_5.index t (1 : Fin 4)
        ∧ win0_1.index t (2 : Fin 4) = 0 ∧ win0_1.index t (3 : Fin 4) = 0)
    ∧ (win0_2.index t (0 : Fin 4) = win0_5.index t (0 : Fin 4) ∧ win0_2.index t (1 : Fin 4) = win0_5.index t (1 : Fin 4)
        ∧ win0_2.index t (2 : Fin 4) = 0 ∧ win0_2.index t (3 : Fin 4) = 0)
    ∧ (win0_3.index t (0 : Fin 3) = win0_5.index t (0 : Fin 4) ∧ win0_3.index t (1 : Fin 3) = win0_5.index t (2 : Fin 4)
        ∧ win0_3.index t (2 : Fin 3) = 0) :=
  (by decide +kernel : ∀ t : Fin grid0.N, _)

/-- Every (batch, head, query tile) is SOME point's block of the probabilities window, and of the output window. -/
theorem idx_onto : ∀ (q0 : Fin 2) (q1 : Fin 16) (q2 : Fin 4), ∃ t : Fin cfg0.N,
    win0_5.index t = ![q0.val, q1.val, q2.val, 0] ∧ win0_4.index t = ![q0.val, q1.val, q2.val, 0] :=
  (by decide +kernel : ∀ (q0 : Fin 2) (q1 : Fin 16) (q2 : Fin 4), ∃ t : Fin grid0.N,
    win0_5.index t = ![q0.val, q1.val, q2.val, 0] ∧ win0_4.index t = ![q0.val, q1.val, q2.val, 0])

/-! ## The blocks and the arrays, at their literal types -/

variable (m : (ℓ : Loc nD τ sig) → Buf (Elt Ideal) ℓ) (ρ : Dev nD → PrngReg)

abbrev qblk (c : Dev nD) (t : Fin cfg0.N) : Vec Ideal S1x1x512x64 .f32 := iblk m c 0 t
abbrev kblk (c : Dev nD) (t : Fin cfg0.N) : Vec Ideal S1x1x2048x64 .f32 := iblk m c 1 t
abbrev vblk (c : Dev nD) (t : Fin cfg0.N) : Vec Ideal S1x1x2048x64 .f32 := iblk m c 2 t
abbrev mblk (c : Dev nD) (t : Fin cfg0.N) : Vec Ideal S1x512x2048 .f32 := iblk m c 3 t
abbrev qarr (c : Dev nD) : Vec Ideal S2x16x2048x64 .f32 := V m c main_arg0
abbrev karr (c : Dev nD) : Vec Ideal S2x16x2048x64 .f32 := V m c main_arg1
abbrev varr (c : Dev nD) : Vec Ideal S2x16x2048x64 .f32 := V m c main_arg2
abbrev marr (c : Dev nD) : Vec Ideal S2x2048x2048 .f32 := V m c main_arg3

/-- Query row `p` of point `t`'s query block is row `r` of head `h` of batch `b` of the queries, for the point's
    `b`, `h` and `r = 512 g + p`. -/
theorem qblk_row (c : Dev nD) (t : Fin cfg0.N) (p : Fin 512) (b : Fin 2) (h : Fin 16) (r : Fin 2048)
    (hb : b.val = win0_0.index t (0 : Fin 4)) (hh : h.val = win0_0.index t (1 : Fin 4))
    (hr : r.val = win0_0.index t (2 : Fin 4) * 512 + p.val) (h3 : win0_0.index t (3 : Fin 4) = 0) :
    qrow (qblk m c t) p = rowOf (qarr m c) b h r := by
  funext d
  show V m c main_arg0 (((cfg0.win 0).blk t).view.emb (ix4 (0 : Fin 1) (0 : Fin 1) p d)) = V m c main_arg0 (ix4 b h r d)
  congr 1
  funext a; apply Fin.ext
  match a with
  | ⟨0, _⟩ => show win0_0.index t (0 : Fin 4) * 1 + 1 * 0 = b.val; omega
  | ⟨1, _⟩ => show win0_0.index t (1 : Fin 4) * 1 + 1 * 0 = h.val; omega
  | ⟨2, _⟩ => show win0_0.index t (2 : Fin 4) * 512 + 1 * p.val = r.val; omega
  | ⟨3, _⟩ => show win0_0.index t (3 : Fin 4) * 64 + 1 * d.val = d.val; omega

/-- The rows of point `t`'s key block are the rows of head `h` of batch `b` of the keys. -/
theorem kblk_rows (c : Dev nD) (t : Fin cfg0.N) (b : Fin 2) (h : Fin 16)
    (hb : b.val = win0_1.index t (0 : Fin 4)) (hh : h.val = win0_1.index t (1 : Fin 4))
    (h2 : win0_1.index t (2 : Fin 4) = 0) (h3 : win0_1.index t (3 : Fin 4) = 0) :
    rows (kblk m c t) = rowsOf (karr m c) b h := by
  funext r d
  show V m c main_arg1 (((cfg0.win 1).blk t).view.emb (ix4 (0 : Fin 1) (0 : Fin 1) r d)) = V m c main_arg1 (ix4 b h r d)
  congr 1
  funext a; apply Fin.ext
  match a with
  | ⟨0, _⟩ => show win0_1.index t (0 : Fin 4) * 1 + 1 * 0 = b.val; omega
  | ⟨1, _⟩ => show win0_1.index t (1 : Fin 4) * 1 + 1 * 0 = h.val; omega
  | ⟨2, _⟩ => show win0_1.index t (2 : Fin 4) * 2048 + 1 * r.val = r.val; omega
  | ⟨3, _⟩ => show win0_1.index t (3 : Fin 4) * 64 + 1 * d.val = d.val; omega

/-- The rows of point `t`'s value block are the rows of head `h` of batch `b` of the values. -/
theorem vblk_rows (c : Dev nD) (t : Fin cfg0.N) (b : Fin 2) (h : Fin 16)
    (hb : b.val = win0_2.index t (0 : Fin 4)) (hh : h.val = win0_2.index t (1 : Fin 4))
    (h2 : win0_2.index t (2 : Fin 4) = 0) (h3 : win0_2.index t (3 : Fin 4) = 0) :
    rows (vblk m c t) = rowsOf (varr m c) b h := by
  funext r d
  show V m c main_arg2 (((cfg0.win 2).blk t).view.emb (ix4 (0 : Fin 1) (0 : Fin 1) r d)) = V m c main_arg2 (ix4 b h r d)
  congr 1
  funext a; apply Fin.ext
  match a with
  | ⟨0, _⟩ => show win0_2.index t (0 : Fin 4) * 1 + 1 * 0 = b.val; omega
  | ⟨1, _⟩ => show win0_2.index t (1 : Fin 4) * 1 + 1 * 0 = h.val; omega
  | ⟨2, _⟩ => show win0_2.index t (2 : Fin 4) * 2048 + 1 * r.val = r.val; omega
  | ⟨3, _⟩ => show win0_2.index t (3 : Fin 4) * 64 + 1 * d.val = d.val; omega

/-- Row `p` of point `t`'s mask block is row `r` of batch `b` of the mask. -/
theorem mblk_row (c : Dev nD) (t : Fin cfg0.N) (p : Fin 512) (b : Fin 2) (r : Fin 2048)
    (hb : b.val = win0_3.index t (0 : Fin 3)) (hr : r.val = win0_3.index t (1 : Fin 3) * 512 + p.val)
    (h2 : win0_3.index t (2 : Fin 3) = 0) :
    mrow (mblk m c t) p = maskRow (marr m c) b r := by
  funext k
  show V m c main_arg3 (((cfg0.win 3).blk t).view.emb (ix3 (0 : Fin 1) p k)) = V m c main_arg3 (ix3 b r k)
  congr 1
  funext a; apply Fin.ext
  match a with
  | ⟨0, _⟩ => show win0_3.index t (0 : Fin 3) * 1 + 1 * 0 = b.val; omega
  | ⟨1, _⟩ => show win0_3.index t (1 : Fin 3) * 512 + 1 * p.val = r.val; omega
  | ⟨2, _⟩ => show win0_3.index t (2 : Fin 3) * 2048 + 1 * k.val = k.val; omega

/-! ## What a point writes back -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- The batch, head and row of the arrays that index `y` of point `t`'s probabilities block lands on. -/
theorem landing (t : Fin cfg0.N) (i0 i1 i2 : ℕ) (y2 : ℕ) (hy2 : y2 < 512)
    (e0 : i0 = win0_5.index t (0 : Fin 4)) (e1 : i1 = win0_5.index t (1 : Fin 4))
    (e2 : i2 = win0_5.index t (2 : Fin 4) * 512 + y2) : i0 < 2 ∧ i1 < 16 ∧ i2 < 2048 := by
  obtain ⟨⟨a0, a1, a2, _⟩, _⟩ := idx_facts t
  omega

/-- WHAT POINT `t` WRITES BACK to the probabilities array is block `t` of `score` of the arguments. -/
theorem flushed_score (c : Dev nD) (t : Fin cfg0.N) :
    (dats m 0 c).flushed 5 t
      = ((cfg0.win 5).blk t).view.read (Elt Ideal) (score (qarr m c) (karr m c) (marr m c)) := by
  rw [Value.flushed5]
  unfold out0_5
  rw [View.canon_unit_zero hz4]
  simp only [View.ld_unit_zero (S := S1x1x512x64) hz4, View.ld_unit_zero (S := S1x1x2048x64) hz4,
    View.ld_unit_zero (S := S1x512x2048) hz3]
  obtain ⟨⟨a0, a1, a2, a3⟩, -, ⟨q0, q1, q2, q3⟩, ⟨k0, k1, k2, k3⟩, -, ⟨m0, m1, m2⟩⟩ := idx_facts t
  funext y
  have hy2 : (y 2).val < 512 := (y 2).isLt
  have hy3 : (y 3).val < 2048 := (y 3).isLt
  have hy0 : (y 0).val < 1 := (y 0).isLt
  have hy1 : (y 1).val < 1 := (y 1).isLt
  -- the array index under block index `y`
  obtain ⟨b, h, r, j, he⟩ : ∃ (b : Fin 2) (h : Fin 16) (r : Fin 2048) (j : Fin 2048),
      ((cfg0.win 5).blk t).view.emb y = ix4 b h r j :=
    ⟨⟨win0_5.index t (0 : Fin 4), a0⟩, ⟨win0_5.index t (1 : Fin 4), a1⟩, ⟨win0_5.index t (2 : Fin 4) * 512 + (y 2).val, by omega⟩,
      ⟨(y 3).val, hy3⟩, funext fun a => Fin.ext (by
        match a with
        | ⟨0, _⟩ => show win0_5.index t (0 : Fin 4) * 1 + 1 * (y 0).val = win0_5.index t (0 : Fin 4); omega
        | ⟨1, _⟩ => show win0_5.index t (1 : Fin 4) * 1 + 1 * (y 1).val = win0_5.index t (1 : Fin 4); omega
        | ⟨2, _⟩ => show win0_5.index t (2 : Fin 4) * 512 + 1 * (y 2).val = win0_5.index t (2 : Fin 4) * 512 + (y 2).val; omega
        | ⟨3, _⟩ => show win0_5.index t (3 : Fin 4) * 2048 + 1 * (y 3).val = (y 3).val; omega)⟩
  have hb : b.val = win0_5.index t (0 : Fin 4) := by
    have := congrArg (fun e => (e (0 : Fin 4)).val) he
    show (ix4 b h r j (0 : Fin 4)).val = _
    rw [← this]; show win0_5.index t (0 : Fin 4) * 1 + 1 * (y 0).val = _; omega
  have hh : h.val = win0_5.index t (1 : Fin 4) := by
    have := congrArg (fun e => (e (1 : Fin 4)).val) he
    show (ix4 b h r j (1 : Fin 4)).val = _
    rw [← this]; show win0_5.index t (1 : Fin 4) * 1 + 1 * (y 1).val = _; omega
  have hr : r.val = win0_5.index t (2 : Fin 4) * 512 + (y 2).val := by
    have := congrArg (fun e => (e (2 : Fin 4)).val) he
    show (ix4 b h r j (2 : Fin 4)).val = _
    rw [← this]; show win0_5.index t (2 : Fin 4) * 512 + 1 * (y 2).val = _; omega
  have hj : j.val = (y 3).val := by
    have := congrArg (fun e => (e (3 : Fin 4)).val) he
    show (ix4 b h r j (3 : Fin 4)).val = _
    rw [← this]; show win0_5.index t (3 : Fin 4) * 2048 + 1 * (y 3).val = _; omega
  show k0_pay3 (F := Ideal) (qblk m c t) (kblk m c t) (mblk m c t) y
      = score (qarr m c) (karr m c) (marr m c) (((cfg0.win 5).blk t).view.emb y)
  obtain ⟨p, hp⟩ : ∃ p : Fin 512, p.val = (y 2).val := ⟨⟨(y 2).val, hy2⟩, rfl⟩
  rw [he, pay3_apply (qblk m c t) (kblk m c t) (mblk m c t) y p j hp.symm hj.symm,
    qblk_row m c t p b h r (by omega) (by omega) (by omega) q3,
    kblk_rows m c t b h (by omega) (by omega) k2 k3,
    mblk_row m c t p b r (by omega) (by omega) m2]
  rfl

/-- WHAT POINT `t` WRITES BACK to the output array is block `t` of `attend` of the arguments. -/
theorem flushed_attend (c : Dev nD) (t : Fin cfg0.N) :
    (dats m 0 c).flushed 4 t
      = ((cfg0.win 4).blk t).view.read (Elt Ideal) (attend (qarr m c) (karr m c) (varr m c) (marr m c)) := by
  rw [Value.flushed4]
  unfold out0_4
  rw [View.canon_unit_zero hz4]
  simp only [View.ld_unit_zero (S := S1x1x512x64) hz4, View.ld_unit_zero (S := S1x1x2048x64) hz4,
    View.ld_unit_zero (S := S1x512x2048) hz3]
  obtain ⟨⟨a0, a1, a2, a3⟩, ⟨o0, o1, o2, o3⟩, ⟨q0, q1, q2, q3⟩, ⟨k0, k1, k2, k3⟩, ⟨w0, w1, w2, w3⟩, ⟨m0, m1, m2⟩⟩ := idx_facts t
  funext y
  have hy2 : (y 2).val < 512 := (y 2).isLt
  have hy3 : (y 3).val < 64 := (y 3).isLt
  have hy0 : (y 0).val < 1 := (y 0).isLt
  have hy1 : (y 1).val < 1 := (y 1).isLt
  obtain ⟨b, h, r, d, he⟩ : ∃ (b : Fin 2) (h : Fin 16) (r : Fin 2048) (d : Fin 64),
      ((cfg0.win 4).blk t).view.emb y = ix4 b h r d :=
    ⟨⟨win0_4.index t (0 : Fin 4), by omega⟩, ⟨win0_4.index t (1 : Fin 4), by omega⟩, ⟨win0_4.index t (2 : Fin 4) * 512 + (y 2).val, by omega⟩,
      ⟨(y 3).val, hy3⟩, funext fun a => Fin.ext (by
        match a with
        | ⟨0, _⟩ => show win0_4.index t (0 : Fin 4) * 1 + 1 * (y 0).val = win0_4.index t (0 : Fin 4); omega
        | ⟨1, _⟩ => show win0_4.index t (1 : Fin 4) * 1 + 1 * (y 1).val = win0_4.index t (1 : Fin 4); omega
        | ⟨2, _⟩ => show win0_4.index t (2 : Fin 4) * 512 + 1 * (y 2).val = win0_4.index t (2 : Fin 4) * 512 + (y 2).val; omega
        | ⟨3, _⟩ => show win0_4.index t (3 : Fin 4) * 64 + 1 * (y 3).val = (y 3).val; omega)⟩
  have hb : b.val = win0_4.index t (0 : Fin 4) := by
    have := congrArg (fun e => (e (0 : Fin 4)).val) he
    show (ix4 b h r d (0 : Fin 4)).val = _
    rw [← this]; show win0_4.index t (0 : Fin 4) * 1 + 1 * (y 0).val = _; omega
  have hh : h.val = win0_4.index t (1 : Fin 4) := by
    have := congrArg (fun e => (e (1 : Fin 4)).val) he
    show (ix4 b h r d (1 : Fin 4)).val = _
    rw [← this]; show win0_4.index t (1 : Fin 4) * 1 + 1 * (y 1).val = _; omega
  have hr : r.val = win0_4.index t (2 : Fin 4) * 512 + (y 2).val := by
    have := congrArg (fun e => (e (2 : Fin 4)).val) he
    show (ix4 b h r d (2 : Fin 4)).val = _
    rw [← this]; show win0_4.index t (2 : Fin 4) * 512 + 1 * (y 2).val = _; omega
  have hd : d.val = (y 3).val := by
    have := congrArg (fun e => (e (3 : Fin 4)).val) he
    show (ix4 b h r d (3 : Fin 4)).val = _
    rw [← this]; show win0_4.index t (3 : Fin 4) * 64 + 1 * (y 3).val = _; omega
  show k0_pay1 (F := Ideal) (k0_pay4 (F := Ideal) (qblk m c t) (kblk m c t) (mblk m c t) (vblk m c t)) y
      = attend (qarr m c) (karr m c) (varr m c) (marr m c) (((cfg0.win 4).blk t).view.emb y)
  obtain ⟨p, hp⟩ : ∃ p : Fin 512, p.val = (y 2).val := ⟨⟨(y 2).val, hy2⟩, rfl⟩
  rw [he, pay1_apply (qblk m c t) (kblk m c t) (mblk m c t) (vblk m c t) y p d hp.symm hd.symm,
    qblk_row m c t p b h r (by omega) (by omega) (by omega) q3,
    kblk_rows m c t b h (by omega) (by omega) k2 k3,
    vblk_rows m c t b h (by omega) (by omega) w2 w3,
    mblk_row m c t p b r (by omega) (by omega) m2]
  rfl

/-! ## The blocks tile the arrays -/

theorem mem_blk5 (t : Fin cfg0.N) (i : S2x16x2048x2048.Idx) :
    i ∈ ((cfg0.win 5).blk t).view.set ↔ ∀ a : Fin 4, win0_5.index t a * S1x1x512x2048.size a ≤ (i a).val
      ∧ (i a).val < win0_5.index t a * S1x1x512x2048.size a + S1x1x512x2048.size a := by
  show i ∈ ((View.whole main_v0_1).slice (win0_5.rect t)).set ↔ _
  rw [View.set_slice_whole, Rect.mem_set_unit]
  exact Iff.rfl

theorem mem_blk4 (t : Fin cfg0.N) (i : S2x16x2048x64.Idx) :
    i ∈ ((cfg0.win 4).blk t).view.set ↔ ∀ a : Fin 4, win0_4.index t a * S1x1x512x64.size a ≤ (i a).val
      ∧ (i a).val < win0_4.index t a * S1x1x512x64.size a + S1x1x512x64.size a := by
  show i ∈ ((View.whole main_v0_0).slice (win0_4.rect t)).set ↔ _
  rw [View.set_slice_whole, Rect.mem_set_unit]
  exact Iff.rfl

/-- Every index of the probabilities array is in some point's block: the point of its batch, head and query tile. -/
theorem cover5 (i : S2x16x2048x2048.Idx) :
    ∃ t : Fin cfg0.N, (cfg0.win 5).flush t = true ∧ i ∈ ((cfg0.win 5).blk t).view.set := by
  have hi0 : (i 0).val < 2 := (i 0).isLt
  have hi1 : (i 1).val < 16 := (i 1).isLt
  have hi2 : (i 2).val < 2048 := (i 2).isLt
  have hi3 : (i 3).val < 2048 := (i 3).isLt
  obtain ⟨t, ht, -⟩ := idx_onto ⟨(i 0).val, hi0⟩ ⟨(i 1).val, hi1⟩ ⟨(i 2).val / 512, by omega⟩
  have q0 : win0_5.index t (0 : Fin 4) = (i 0).val := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 2048 ≤ (i 3).val ∧ (i 3).val < win0_5.index t (3 : Fin 4) * 2048 + 2048; omega

/-- Every index of the output array is in some point's block. -/
theorem cover4 (i : S2x16x2048x64.Idx) :
    ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, -, ht⟩ := idx_onto ⟨(i 0).val, hi0⟩ ⟨(i 1).val, hi1⟩ ⟨(i 2).val / 512, by omega⟩
  have q0 : win0_4.index t (0 : Fin 4) = (i 0).val := congrFun ht 0
  have q1 : win0_4.index t (1 : Fin 4) = (i 1).val := congrFun ht 1
  have q2 : win0_4.index t (2 : Fin 4) = (i 2).val / 512 := congrFun ht 2
  have q3 : win0_4.index t (3 : Fin 4) = 0 := congrFun ht 3
  refine ⟨t, flush0_4 t, ?_⟩
  rw [mem_blk4]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 512 ≤ (i 2).val ∧ (i 2).val < win0_4.index t (2 : Fin 4) * 512 + 512; omega
  | ⟨3, _⟩ => show win0_4.index t (3 : Fin 4) * 64 ≤ (i 3).val ∧ (i 3).val < win0_4.index t (3 : Fin 4) * 64 + 64; omega

/-! ## The arrays after the run -/

/-- After the run the probabilities array is `score` of the arguments. -/
theorem final_score (c : Dev nD) : (dats m 0 c).arrAt 5 cfg0.N
    = score (m ((c : Thread nD τ).loc main_arg0)) (m ((c : Thread nD τ).loc main_arg1)) (m ((c : Thread nD τ).loc main_arg3)) :=
  (dats m 0 c).arrAt_eq_of_cover 5 (score (qarr m c) (karr m c) (marr m c)) (fun t _ => flushed_score m c t) cover5

/-- After the run the output array is `attend` of the arguments. -/
theorem final_attend (c : Dev nD) : (dats m 0 c).arrAt 4 cfg0.N
    = attend (m ((c : Thread nD τ).loc main_arg0)) (m ((c : Thread nD τ).loc main_arg1)) (m ((c : Thread nD τ).loc main_arg2))
        (m ((c : Thread nD τ).loc main_arg3)) :=
  (dats m 0 c).arrAt_eq_of_cover 4 (attend (qarr m c) (karr m c) (varr m c) (marr m c)) (fun t _ => flushed_attend m c t) cover4

/-- THE RUN, READ: every weakly fair execution ends with the output array at `attend` and the probabilities array at
    `score` of the argument arrays, the arguments unchanged. -/
theorem run : θ_run defs (onTc (τ := τ) (main (F := Ideal))) ⟨m, fun _ => 0, ρ⟩ fun r => ∀ c : Dev nD,
      r.2.mem ((c : Thread nD τ).loc main_v0_0)
        = attend (m ((c : Thread nD τ).loc main_arg0)) (m ((c : Thread nD τ).loc main_arg1)) (m ((c : Thread nD τ).loc main_arg2))
            (m ((c : Thread nD τ).loc main_arg3))
      ∧ r.2.mem ((c : Thread nD τ).loc main_v0_1)
        = score (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final_attend m c), (h c).2.1.trans (final_score m c), (h c).2.2⟩)
    (Value.run_blocks m ρ)

end Cert.KernelIdeal.Arrays

end
-- ==== Proof.Consts.lean ====
/-
  The float literals the two programs spell differently for one number. The reference divides the logits by the
  square root of the head dimension, `sqrt 64`, and the kernel multiplies them by the literal `0.125`. On the
  extended reals `sqrt 64 = 8`, the pattern `0x3E000000` denotes `1/8`, and dividing by a nonzero real is
  multiplying by its inverse, whatever the dividend (the infinities included). Both patterns are read here and
  nowhere else.
-/
import Idealize.ShloMosaic.PureOps.Ideal

noncomputable section

namespace Cert.Consts

open Idealize.ShloMosaic

/-- The pattern `0x42800000` denotes the real `64`. -/
theorem ofBits_64 : Ideal.ofBits .f32 0x42800000#32 = ((64 : ℝ) : EReal) := by
  simp [Ideal.ofBits, Ideal.ieee, -EReal.coe_mul]; norm_num

/-- The pattern `0x3E000000` denotes the real `1/8`. -/
theorem ofBits_eighth : Ideal.ofBits .f32 0x3E000000#32 = ((1 / 8 : ℝ) : EReal) := by
  simp [Ideal.ofBits, Ideal.ieee, -EReal.coe_mul]; norm_num

/-- `sqrt 64 = 8` on the extended reals. -/
theorem sqrt_64 : Ideal.sqrt ((64 : ℝ) : EReal) = ((8 : ℝ) : EReal) := by
  rw [Ideal.sqrt_coe, if_neg (by norm_num)]
  congr 1
  rw [show (64 : ℝ) = 8 * 8 by norm_num, Real.sqrt_mul_self (by norm_num)]

/-- Dividing any extended real by `sqrt 64` is multiplying it by the literal `0.125`. -/
theorem div_sqrt_64 (x : EReal) :
    Ideal.div x (Ideal.sqrt (Ideal.ofBits .f32 0x42800000#32)) = x * Ideal.ofBits .f32 0x3E000000#32 := by
  rw [ofBits_64, sqrt_64, ofBits_eighth, Ideal.div_coe (by norm_num : (8 : ℝ) ≠ 0)]

end Cert.Consts

end
-- ==== Proof.ReferenceRow.lean ====
/-
  The reference program, stage by stage, is the row specification.

  Its logits at `(b, h, i, j)` are the sum over the 64 features of query row `i` times key row `j`, divided by `sqrt 64`
  (which is multiplying by `1/8`), times the mask at `(b, i, j)`. Its row maximum is a fold of `max` from `-∞` over the
  2048 keys, joined once more with `-∞`, which changes nothing. Its weights, their row sum (from zero), the quotient and
  the product with the value rows are the specification's, term by term.
-/
import proofs.«139500_j69466801045769_1_alg».proof.Proof.Gen.ReferenceIdeal.Read
import proofs.«139500_j69466801045769_1_alg».proof.Proof.AttentionRow
import proofs.«139500_j69466801045769_1_alg».proof.Proof.Consts
import Idealize.ShloMosaic.PureOps.Ideal.Laws
import Idealize.ShloMosaic.Lib.ValueIdx

noncomputable section

open scoped BigOperators

namespace Cert.ReferenceIdeal.Row

open Cert.ReferenceIdeal Cert.ReferenceIdeal.Gen Cert.ReferenceIdeal.Read
open Idealize.ShloMosaic Idealize.ShloMosaic.ValueIdx Cert.AttentionRow

variable (x0 x1 x2 : (⟨S2x16x2048x64, .f32⟩ : BufTy).Contents (Elt Ideal)) (x3 : (⟨S2x2048x2048, .f32⟩ : BufTy).Contents (Elt Ideal))

/-- The reference's scaled, masked logit at `(b, h, i, j)`. -/
theorem ref_logit (b : Fin 2) (h : Fin 16) (i j : Fin 2048) :
    val_main_v6 (F := Ideal) x0 x1 x3 (ix4 b h i j) = logit (rowOf x0 b h i) (rowsOf x1 b h) (maskRow x3 b i) j := by
  rw [val_main_v6_apply, val_main_v3_apply, val_main_v0_apply, val_main_v2_apply, val_main_v1_apply, val_main_cst_apply,
    val_main_v5_apply, val_main_v4_apply]
  simp only [Ideal.mulf_def, Ideal.hostDivf_def, Ideal.hostUnary_sqrt_def, Ideal.ofBits_def, Consts.div_sqrt_64]
  have e1 : ∀ k : Fin 64, lidx_main_v0 (ix4 b h i j) k = ix4 b h i k := fun k => funext fun a => Fin.ext (by
    match a with | ⟨0, _⟩ => rfl | ⟨1, _⟩ => rfl | ⟨2, _⟩ => rfl | ⟨3, _⟩ => rfl)
  have e2 : ∀ k : Fin 64, ridx_main_v0 (ix4 b h i j) k = ix4 b h j k := fun k => funext fun a => Fin.ext (by
    match a with | ⟨0, _⟩ => rfl | ⟨1, _⟩ => rfl | ⟨2, _⟩ => rfl | ⟨3, _⟩ => rfl)
  have e3 : idx_main_v4 (idx_main_v5 (ix4 b h i j)) = ix3 b i j := funext fun a => Fin.ext (by
    match a with | ⟨0, _⟩ => rfl | ⟨1, _⟩ => rfl | ⟨2, _⟩ => rfl)
  simp only [e1, e2, e3]
  rfl

/-- The reference's row maximum at `(b, h, i)`: the fold over the row's logits; joining it with `-∞` again is idle. -/
theorem ref_top (b : Fin 2) (h : Fin 16) (i : Fin 2048) :
    val_main_v9 (F := Ideal) x0 x1 x3 (ix3 b h i) = top (rowOf x0 b h i) (rowsOf x1 b h) (maskRow x3 b i) := by
  have hr : S2x16x2048x2048.Reduces [3] S2x16x2048 := by decide
  have h7 : val_main_v7 (F := Ideal) x0 x1 x3 (ix3 b h i) = top (rowOf x0 b h i) (rowsOf x1 b h) (maskRow x3 b i) := by
    unfold val_main_v7
    rw [Host.reduce_eq_fold_single (FloatOps.maximumf (F := Ideal) (φ := .f32)) (h := hr)]
    unfold top
    refine congrArg (fun f => (Finset.univ : Finset (Fin 2048)).fold max (Ideal.ofBits .f32 0xFF800000#32) f) (funext fun k => ?_)
    show val_main_v6 (F := Ideal) x0 x1 x3 (hr.lift (ix3 b h i) k) = _
    rw [show hr.lift (ix3 b h i) k = ix4 b h i k from funext fun a => Fin.ext (by
      match a with | ⟨0, _⟩ => rfl | ⟨1, _⟩ => rfl | ⟨2, _⟩ => rfl | ⟨3, _⟩ => rfl)]
    exact ref_logit x0 x1 x3 b h i k
  rw [val_main_v9_apply, val_main_v8_apply, val_main_cst_1_apply, h7]
  simp only [Ideal.maximumf_def, Ideal.ofBits_def]
  exact max_fold_max _ _

/-- The reference's softmax weight at `(b, h, i, j)`. -/
theorem ref_weight (b : Fin 2) (h : Fin 16) (i j : Fin 2048) :
    val_main_v13 (F := Ideal) x0 x1 x3 (ix4 b h i j) = weight (rowOf x0 b h i) (rowsOf x1 b h) (maskRow x3 b i) j := by
  have e : idx_main_v10 (idx_main_v11 (ix4 b h i j)) = ix3 b h i := funext fun a => Fin.ext (by
    match a with | ⟨0, _⟩ => rfl | ⟨1, _⟩ => rfl | ⟨2, _⟩ => rfl)
  rw [val_main_v13_apply, val_main_v12_apply, val_main_v11_apply, val_main_v10_apply, e, ref_logit, ref_top]
  rfl

/-- The reference's row sum of the weights at `(b, h, i)`. -/
theorem ref_sum (b : Fin 2) (h : Fin 16) (i : Fin 2048) :
    val_main_v14 (F := Ideal) x0 x1 x3 (ix3 b h i) = ∑ j : Fin 2048, weight (rowOf x0 b h i) (rowsOf x1 b h) (maskRow x3 b i) j := by
  rw [val_main_v14_apply, val_main_cst_2_apply]
  simp only [Ideal.ofBits_def, Ideal.ofBits_zero_f32, zero_add]
  refine Finset.sum_congr rfl fun j _ => ?_
  rw [show idx_main_v14 (ix3 b h i) j = ix4 b h i j from funext fun a => Fin.ext (by
    match a with | ⟨0, _⟩ => rfl | ⟨1, _⟩ => rfl | ⟨2, _⟩ => rfl | ⟨3, _⟩ => rfl)]
  exact ref_weight x0 x1 x3 b h i j

/-- The reference's probability at `(b, h, i, j)`. -/
theorem ref_prob (b : Fin 2) (h : Fin 16) (i j : Fin 2048) :
    val_main_v17 (F := Ideal) x0 x1 x3 (ix4 b h i j) = prob (rowOf x0 b h i) (rowsOf x1 b h) (maskRow x3 b i) j := by
  have e : idx_main_v15 (idx_main_v16 (ix4 b h i j)) = ix3 b h i := funext fun a => Fin.ext (by
    match a with | ⟨0, _⟩ => rfl | ⟨1, _⟩ => rfl | ⟨2, _⟩ => rfl)
  rw [val_main_v17_apply, val_main_v16_apply, val_main_v15_apply, e, ref_weight, ref_sum]
  rfl

/-- THE REFERENCE'S PROBABILITIES are the specification's `score`. -/
theorem ref_score : val_main_v17 (F := Ideal) x0 x1 x3 = score x0 x1 x3 := by
  funext y
  obtain ⟨b, h, i, j, rfl⟩ : ∃ (b : Fin 2) (h : Fin 16) (i : Fin 2048) (j : Fin 2048), y = ix4 b h i j :=
    ⟨y 0, y 1, y 2, y 3, eq_ix4 y⟩
  exact ref_prob x0 x1 x3 b h i j

/-- THE REFERENCE'S OUTPUT is the specification's `attend`. -/
theorem ref_attend : val_main_v18 (F := Ideal) x0 x1 x2 x3 = attend x0 x1 x2 x3 := by
  funext y
  obtain ⟨b, h, i, d, rfl⟩ : ∃ (b : Fin 2) (h : Fin 16) (i : Fin 2048) (d : Fin 64), y = ix4 b h i d :=
    ⟨y 0, y 1, y 2, y 3, eq_ix4 y⟩
  rw [val_main_v18_apply]
  show _ = ∑ j : Fin 2048, prob (rowOf x0 b h i) (rowsOf x1 b h) (maskRow x3 b i) j * x2 (ix4 b h j d)
  refine Finset.sum_congr rfl fun j _ => ?_
  rw [show lidx_main_v18 (ix4 b h i d) j = ix4 b h i j from funext fun a => Fin.ext (by
      match a with | ⟨0, _⟩ => rfl | ⟨1, _⟩ => rfl | ⟨2, _⟩ => rfl | ⟨3, _⟩ => rfl),
    show ridx_main_v18 (ix4 b h i d) j = ix4 b h j d from funext fun a => Fin.ext (by
      match a with | ⟨0, _⟩ => rfl | ⟨1, _⟩ => rfl | ⟨2, _⟩ => rfl | ⟨3, _⟩ => rfl),
    ref_prob]

end Cert.ReferenceIdeal.Row

end
-- ==== Proof.lean ====
/-
  Masked softmax attention: a tiled kernel against the plain reference, equal over the extended reals.

  For batch `b`, head `h` and query row `i` both programs compute
    logit j = (∑ d, q[b,h,i,d] · k[b,h,j,d]) · (1/8) · mask[b,i,j],   prob j = exp (logit j − max) / ∑ j', exp (logit j' − max),
    out d   = ∑ j, prob j · v[b,h,j,d],
  and return the outputs and the probabilities. The reference divides the logits by `sqrt 64` where the kernel multiplies
  them by `0.125`: one number, and dividing by a nonzero real is multiplying by its inverse on every extended real, so
  nothing is asked of the inputs. The reference also joins its row maximum with `-∞` once more, which is idle. The kernel
  works a block of 512 query rows of one head at a time against that head's 2048 key and value rows; a row of a block is
  a row of its array, and the 128 blocks tile both results.

  `Proof/AttentionRow.lean` states the row functions and the two arrays `attend` and `score`; `Proof/ReferenceRow.lean`
  shows the reference's results are those arrays; `Proof/KernelRow.lean` and `Proof/KernelArrays.lean` show the kernel's
  are. The kernel's idealization rewrote no operation, so there is nothing to preserve.
-/
import proofs.«139500_j69466801045769_1_alg».proof.Defs
import proofs.«139500_j69466801045769_1_alg».proof.Proof.Gen.Kernel
import proofs.«139500_j69466801045769_1_alg».proof.Proof.Gen.Kernel.Skeleton
import proofs.«139500_j69466801045769_1_alg».proof.Proof.Gen.Kernel.Launch
import proofs.«139500_j69466801045769_1_alg».proof.Proof.Gen.Kernel.Points
import proofs.«139500_j69466801045769_1_alg».proof.Proof.Gen.Kernel.Frame
import proofs.«139500_j69466801045769_1_alg».proof.Proof.Gen.KernelIdeal
import proofs.«139500_j69466801045769_1_alg».proof.Proof.Gen.KernelIdeal.Skeleton
import proofs.«139500_j69466801045769_1_alg».proof.Proof.Gen.KernelIdeal.Launch
import proofs.«139500_j69466801045769_1_alg».proof.Proof.Gen.KernelIdeal.Points
import proofs.«139500_j69466801045769_1_alg».proof.Proof.Gen.KernelIdeal.Frame
import proofs.«139500_j69466801045769_1_alg».proof.Proof.Gen.ReferenceIdeal
import proofs.«139500_j69466801045769_1_alg».proof.Proof.Gen.Pre_finite_inputs
import proofs.«139500_j69466801045769_1_alg».proof.Proof.Gen.KernelIdeal.Value
import proofs.«139500_j69466801045769_1_alg».proof.Proof.Gen.ReferenceIdeal.Run
import proofs.«139500_j69466801045769_1_alg».proof.Proof.Gen.ReferenceIdeal.Read
import proofs.«139500_j69466801045769_1_alg».proof.Proof.KernelArrays
import proofs.«139500_j69466801045769_1_alg».proof.Proof.ReferenceRow
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments as they were: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From arguments that agree, the kernel's output and probabilities arrays end at `attend` and `score` of the
    arguments, and so do the reference's. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.Row.ref_attend,
      (hagree c).1, (hagree c).2.1, (hagree c).2.2.1, (hagree c).2.2.2]
  · rw [Cert.ReferenceIdeal.Read.val_main_v17_eq, Cert.ReferenceIdeal.Row.ref_score,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
